-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S64x128 : Shape := ⟨2, ![64, 128]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x128 .f32) (main_arg1 : FVec F S16384x16384 .f32) (main_arg2 : FVec F S64x128 .f32) (main_arg3 : FVec F S64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S64x128 : Shape := ⟨2, ![64, 128]⟩
abbrev S64 : Shape := ⟨1, ![64]⟩
abbrev S16384x64 : Shape := ⟨2, ![16384, 64]⟩
abbrev S2048x128 : Shape := ⟨2, ![2048, 128]⟩
abbrev S2048x64 : Shape := ⟨2, ![2048, 64]⟩
abbrev S128x64 : Shape := ⟨2, ![128, 64]⟩
abbrev S1x64 : Shape := ⟨2, ![1, 64]⟩
abbrev S1024x2048 : Shape := ⟨2, ![1024, 2048]⟩
abbrev S1024x64 : Shape := ⟨2, ![1024, 64]⟩

abbrev nBuf : Space → Nat
  | .hbm => 7
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S64x128, .f32⟩
  | .hbm, ⟨3, _⟩ => ⟨S64, .f32⟩
  | .hbm, ⟨4, _⟩ => ⟨S16384x64, .f32⟩
  | .hbm, ⟨5, _⟩ => ⟨S1x64, .f32⟩
  | .hbm, ⟨6, _⟩ => ⟨S16384x64, .f32⟩
  | .local _ .vmem, ⟨0, _⟩ => ⟨S2048x128, .f32⟩
  | .local _ .vmem, ⟨1, _⟩ => ⟨S2048x128, .f32⟩
  | .local _ .vmem, ⟨2, _⟩ => ⟨S64x128, .f32⟩
  | .local _ .vmem, ⟨3, _⟩ => ⟨S2048x64, .f32⟩
  | .local _ .vmem, ⟨4, _⟩ => ⟨S2048x64, .f32⟩
  | .local _ .vmem, ⟨5, _⟩ => ⟨S1024x2048, .f32⟩
  | .local _ .vmem, ⟨6, _⟩ => ⟨S1024x2048, .f32⟩
  | .local _ .vmem, ⟨7, _⟩ => ⟨S2048x64, .f32⟩
  | .local _ .vmem, ⟨8, _⟩ => ⟨S2048x64, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S2048x64_S2048x64_0_0 : ∀ a, (![0, 0] : Fin 2 → Nat) a + S2048x64.size a ≤ S2048x64.size a
  h_S2048x64 : 0 < S2048x64.numel
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S2048x128_S128x64_S2048x64_1_0_0_1_n_n_wf : DotDims.WF S2048x128 S128x64 S2048x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S64x128 : Shape := ⟨2, ![64, 128]⟩
abbrev S64 : Shape := ⟨1, ![64]⟩
abbrev S128x64 : Shape := ⟨2, ![128, 64]⟩
abbrev S16384x64 : Shape := ⟨2, ![16384, 64]⟩
abbrev S1x64 : Shape := ⟨2, ![1, 64]⟩

abbrev nBuf : Space → Nat
  | .hbm => 10
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S64x128, .f32⟩
  | .hbm, ⟨3, _⟩ => ⟨S64, .f32⟩
  | .hbm, ⟨4, _⟩ => ⟨S128x64, .f32⟩
  | .hbm, ⟨5, _⟩ => ⟨S16384x64, .f32⟩
  | .hbm, ⟨6, _⟩ => ⟨S16384x64, .f32⟩
  | .hbm, ⟨7, _⟩ => ⟨S1x64, .f32⟩
  | .hbm, ⟨8, _⟩ => ⟨S16384x64, .f32⟩
  | .hbm, ⟨9, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.K.Region0.lean ====
/-
  The first kernel region (the projection), at any float instance, from any contents `V` of the core's buffers at its entry.

  The grid has 8 points; point `t` reads rows `2048 t … 2048 t + 2047` of the `[16384, 128]` operand (window 0) and the
  whole `[64, 128]` operand (window 1, the same block at every point), and stores into the output window's buffer the
  product of the first with the transpose of the second — one store covering the `[2048, 64]` block (window 2), which
  the pipeline writes back to rows `2048 t …` of the `[16384, 64]` result.  Here: each window's block at a point,
  what the body leaves in the output buffer as a function of the two input blocks, the body's triple, the proof data
  (the input buffers keep their blocks, the output buffer holds that function) and the body obligation at a generic point.
-/
import proofs.«152057_j44246753084001_1_alg».proof.Proof.Gen.Kernel.Launch
import proofs.«152057_j44246753084001_1_alg».proof.Proof.Gen.Kernel.Skeleton
import proofs.«152057_j44246753084001_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the first operand is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand, fetched once, is in its buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x128 := Rect.unit (s := S2048x128) ![0, 0] S2048x128.size inb_S2048x128_S2048x128_0_0
abbrev r0_1 : Rect S64x128 := Rect.unit (s := S64x128) ![0, 0] S64x128.size inb_S64x128_S64x128_0_0
abbrev r0_2 : Rect S2048x64 := Rect.unit (s := S2048x64) ![0, 0] S2048x64.size inb_S2048x64_S2048x64_0_0

/-! ## What the body leaves in the output buffer -/

/-- The output buffer after the body: its one store, of the product of the two loaded blocks. -/
def out0_2 (x0 : Vec F S2048x128 .f32) (x1 : Vec F S64x128 .f32) : Vec F S2048x64 .f32 :=
  View.canon [⟨r0_2, k0_pay1 (View.ld x0 r0_0) (View.ld x1 r0_1)⟩]

/-- The one store covers the buffer. -/
theorem cover0_2 (p0 : Vec F S2048x64 .f32) (y : S2048x64.Idx) :
    ∃ pc ∈ ([⟨r0_2, p0⟩] : List (View.Piece (Elt F) S2048x64 .f32)), y ∈ pc.1.set :=
  View.cover_of_tiled [⟨r0_2, p0⟩] S2048x64.size (by rfl) y

/-! ## The body's triple -/

set_option maxHeartbeats 1000000 in
/-- On whole buffers, the inputs' at contents `x0`, `x1` and the output's at anything, the body runs to the continuation
    holding the inputs' as they were and the output's at `out0_2 x0 x1`. -/
theorem sound_kernel0 (c : Dev nD) (E : Set ℕ) (i : grid0.Coords)
    (arg1 : Memref sig .tc .vmem S2048x128 .f32) (harg1 : arg1.IsWhole) (arg2 : Memref sig .tc .vmem S64x128 .f32) (harg2 : arg2.IsWhole)
    (arg3 : Memref sig .tc .vmem S2048x64 .f32) (harg3 : arg3.IsWhole)
    (x0 : Vec F S2048x128 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body at point `t` each input buffer at its block and the output
    buffer at `out0_2` of the two blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/-
  The second kernel region (the aggregation), first part: its blocks, its two branch conditions decided over the grid,
  where its output window is idle, and the body's run in each of its three control cases.

  The grid is 16 row tiles by 8 reduction blocks (128 points, the reduction coordinate running fastest): point `t` is
  row tile `t / 8`, reduction block `t % 8`.  The body keeps a `[1024, 64]` accumulator in a scratch buffer across the
  eight points of a row tile: it zeroes it where the reduction coordinate is 0, adds the product of the `[1024, 2048]`
  block of the first operand with the `[2048, 64]` block of the second at every point, and where the reduction
  coordinate is 7 stores the accumulator plus the `[1, 64]` bias row into the output window's buffer, which the
  pipeline writes back there and only there.
-/
import proofs.«152057_j44246753084001_1_alg».proof.Proof.Gen.Kernel.Launch
import proofs.«152057_j44246753084001_1_alg».proof.Proof.Gen.Kernel.Skeleton
import proofs.«152057_j44246753084001_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "The reduction coordinate is 0", as the body computes it. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "The reduction coordinate is 7", as the body computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last reduction block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last reduction block it is live. -/
theorem liveAt1_3 : ∀ t : Fin cfg1.N, cond1_1 (grid1.coords t) → cfg1.idle 3 (grid1.coords t) = false := by decide +kernel

/-! ## The buffers the body is called with -/

/-- One buffer of the output window, through which its contents are stated. -/
abbrev VO1_3 : View sig .tc .vmem S1024x64 .f32 := (Memref.whole cc1_stg3_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x64 .f32 := Memref.whole cc1_scratch0
abbrev VS1_0 : View sig .tc .vmem S1024x64 .f32 := scM1_0.view

/-! ## The body's run, case by case -/

-- (the run's proof term is large)
set_option maxHeartbeats 1000000 in
/-- The body on whole buffers at the first block of a row tile's reduction (the reduction coordinate is 0): the accumulator is zeroed, then the block's product added; nothing is stored into the output buffer, which is handed back as found.
    The pieces each written buffer ends with are the witness the run finds. -/
noncomputable def kernelRun1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__spmm_kernel i arg2 harg2 arg3 harg3 arg4 harg4 arg5 harg5 arg6 harg6) K } := by
  refine ⟨[], ?_, fun xi3 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

-- (the run's proof term is large)
set_option maxHeartbeats 1000000 in
/-- The body on whole buffers at a middle block of the reduction (the reduction coordinate is neither 0 nor 7): the block's product is added to what the point before left in the accumulator; nothing is stored into the output buffer, which is handed back as found.
    The pieces each written buffer ends with are the witness the run finds. -/
noncomputable def kernelRun1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__spmm_kernel i arg2 harg2 arg3 harg3 arg4 harg4 arg5 harg5 arg6 harg6) K } := by
  refine ⟨[], ?_, fun xi3 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

-- (the run's proof term is large)
set_option maxHeartbeats 1000000 in
/-- The body on whole buffers at the last block of the reduction (the reduction coordinate is 7): the block's product is added to what the point before left in the accumulator, and the accumulator plus the bias row is stored into the output buffer.
    The pieces each written buffer ends with are the witness the run finds. -/
noncomputable def kernelRun1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__spmm_kernel i arg2 harg2 arg3 harg3 arg4 harg4 arg5 harg5 arg6 harg6) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Region1.lean ====
/-
  The second kernel region (the aggregation), second part: what each control case leaves in the accumulator and in the
  output window's buffer, those contents point by point along the grid (a recursion: a point that is not the first of
  its row tile reads what the point before left in the accumulator), the region's invariant — before the first point
  every scoped buffer the pipeline does not stage at anything; afterwards the accumulator at what the point before
  left —, the proof data, and the body obligation at a generic point.
-/
import proofs.«152057_j44246753084001_1_alg».proof.Proof.Gen.Kernel.Launch
import proofs.«152057_j44246753084001_1_alg».proof.Proof.Gen.Kernel.Skeleton
import proofs.«152057_j44246753084001_1_alg».proof.Proof.Gen.Kernel.Points
import proofs.«152057_j44246753084001_1_alg».proof.Proof.K.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What case A leaves in the output window's buffer: its pieces read back (none: a placeholder nothing consults, the window being idle and not written back at the case's points). -/
def out1_A_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) : Vec F S1024x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator cover it. -/
theorem scover1_A_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) (y : S1024x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x64.size (by sl_kernel_rfl) y

/-- What case A leaves in the accumulator: its pieces read back. -/
def sout1_A_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) : Vec F S1024x64 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output window's buffer: its pieces read back (none: a placeholder nothing consults, the window being idle and not written back at the case's points). -/
def out1_B_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) : Vec F S1024x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator cover it. -/
theorem scover1_B_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) (y : S1024x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x64.size (by sl_kernel_rfl) y

/-- What case B leaves in the accumulator: its pieces read back. -/
def sout1_B_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output window's buffer covers it. -/
theorem cover1_C_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) (y : S1024x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x64.size (by sl_kernel_rfl) y

/-- What case C leaves in the output window's buffer: its pieces read back. -/
def out1_C_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) : Vec F S1024x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator cover it. -/
theorem scover1_C_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) (y : S1024x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x64.size (by sl_kernel_rfl) y

/-- What case C leaves in the accumulator: its pieces read back. -/
def sout1_C_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## Point by point -/

/-- What the output window's buffer and the accumulator hold after the body at position `n` (a pair): the case the
    position's reduction coordinate selects, a case that reads the accumulator over what position `n - 1` left. -/
def outsAt1 (c : Dev nD) : (n : ℕ) → n < cfg1.N → Vec F S1024x64 .f32 × Vec F S1024x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At the first block of a row tile. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle block: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last block: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that the region neither stages nor uses: the other region's staging buffers, each at anything. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class's invariant, with the accumulator taken out of the scoped rest. -/
theorem PhiA1_split (c : Dev nD) :
    (Pipeline.ΦA spec1 c : sProp 𝕄) ⊢ iprop(Rest1 (F := F) c ∗ (∃ d, owns (c : Thread nD τ) scM1_0 fullShare d) ∗ (∃ r, prngReg c r)) := by
  unfold Pipeline.ΦA Rest1; rw [scopedRest1_eq]; simp only [scM1_0, owns_whole]
  iintro ⟨⟨H1, H2, H3, H4, H5, HS⟩, Hg⟩
  isplitl [H1 H2 H3 H4 H5]
  · isplitl [H1]; · iexact H1
    isplitl [H2]; · iexact H2
    isplitl [H3]; · iexact H3
    isplitl [H4]; · iexact H4
    iexact H5
  isplitl [HS]; · iexact HS
  iexact Hg

/-- And put back. -/
theorem PhiA1_join (c : Dev nD) :
    iprop(Rest1 (F := F) c ∗ (∃ d, owns (c : Thread nD τ) scM1_0 fullShare d) ∗ (∃ r, prngReg c r)) ⊢ (Pipeline.ΦA spec1 c : sProp 𝕄) := by
  unfold Pipeline.ΦA Rest1; rw [scopedRest1_eq]; simp only [scM1_0, owns_whole]
  iintro ⟨⟨H1, H2, H3, H4, H5⟩, HS, Hg⟩
  isplitr [Hg]
  · isplitl [H1]; · iexact H1
    isplitl [H2]; · iexact H2
    isplitl [H3]; · iexact H3
    isplitl [H4]; · iexact H4
    isplitl [H5]; · iexact H5
    iexact HS
  iexact Hg

/-- The region's invariant before position `n`: before the first point the class's; afterwards the unused scoped
    buffers at anything, the accumulator at what the point before left, and the generator register at some state. -/
def PhiS1 (c : Dev nD) : (n : ℕ) → n ≤ cfg1.N → sProp 𝕄
  | 0, _ => Pipeline.ΦA spec1 c
  | n + 1, hn => iprop(Rest1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(Rest1 (F := F) c ∗ owns (c : Thread nD τ) scM1_0 fullShare ((outsAt1 V c (n - 1) (by omega)).2) ∗ (∃ r, prngReg c r)) := by
  cases n with
  | zero => exact absurd rfl hz
  | succ n => rfl

/-! ## The proof data -/

/-- The arrays as the region finds them; after the body at point `t` each input buffer at its block and the output
    buffer at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input buffers hold their blocks; the point's reduction coordinate says which case it is
    in; the invariant hands the body the accumulator at what the point before left (at anything before the first
    point, and at the first block of a row tile, where the body zeroes it) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Hrestof⟩
        ihave HΦ' := (PhiA1_split (F := F) c) $$ HΦ
        icases HΦ' with ⟨Hrest, HS0, Hg⟩
        icases Hrestof with ⟨Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨Hrest, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨Hrest, HS0, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨Hrest, HS0, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne]
  refine .trans ?_ (PhiA1_join (F := F) c)
  iintro ⟨Hrest, HS0, Hg⟩
  isplitl [Hrest]; · iexact Hrest
  isplitl [HS0]; · iexists _; iexact HS0
  iexact Hg

end Cert.Kernel.Hand

end
-- ==== Proof.K.Run.lean ====
/-
  The whole program's run, at any float instance: @main is the first kernel region, one host operation (the bias
  reshaped to a row), the second kernel region.  The unscoped buffers' contents are followed from the launch through
  the three items — a region leaves its arrays at what its write-backs make of them and every other buffer as it was,
  the host operation writes its result —, each region is entered with the contents the item before left, and after the
  last item every unscoped buffer holds the last of these contents.  From that: the argument arrays end as launched.
-/
import proofs.«152057_j44246753084001_1_alg».proof.Proof.Gen.Kernel.Launch
import proofs.«152057_j44246753084001_1_alg».proof.Proof.Gen.Kernel.Skeleton
import proofs.«152057_j44246753084001_1_alg».proof.Proof.Gen.Kernel.Points
import proofs.«152057_j44246753084001_1_alg».proof.Proof.K.Region0
import proofs.«152057_j44246753084001_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 (c : Dev nD) : Valuation τ sig (Elt F) := fun b => m (c, b)
abbrev V0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operation (the second region's entry). -/
abbrev W2 (c : Dev nD) : Valuation τ sig (Elt F) := StableHlo.after hostOps1 (W1 m c)
abbrev V2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- `main_arg0` ends as launched: no host operation writes it and no region may change it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

/-- `main_arg1` ends as launched: no host operation writes it and no region may change it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := W1_of_ne m c main_arg1 (by decide)
    _ = m ((c : Thread nD τ).loc main_arg1) := rfl

/-- `main_arg2` ends as launched: no host operation writes it and no region may change it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 1).trans (((dat0 (V0 m) c).arrAt_in 1 rfl _).trans (A_eq0 (V0 m) c 1))
    _ = m ((c : Thread nD τ).loc main_arg2) := rfl

/-- `main_arg3` ends as launched: no host operation writes it and no region may change it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

/-! ## The proof data family and the thread state -/

/-- No pipeline has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

-- a library lemma stated over the pinned configuration unifies with the printed one only when unification may unfold
-- plain definitions in a metavariable's type
set_option backward.isDefEq.respectTransparency.types false in
/-- Region 0 over the thread state: its arrays split out of the unscoped buffers at entry and put back at the exit
    contents; the generator register into the region's invariant and out; nothing owed; no semaphore of its own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: its arrays split out of the unscoped buffers at entry and put back at the exit
    contents; the generator register into the region's invariant and out; nothing owed; no semaphore of its own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) admH (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.KI.Region0.lean ====
/-
  The first kernel region (the projection), at any float instance, from any contents `V` of the core's buffers at its entry.

  The grid has 8 points; point `t` reads rows `2048 t … 2048 t + 2047` of the `[16384, 128]` operand (window 0) and the
  whole `[64, 128]` operand (window 1, the same block at every point), and stores into the output window's buffer the
  product of the first with the transpose of the second — one store covering the `[2048, 64]` block (window 2), which
  the pipeline writes back to rows `2048 t …` of the `[16384, 64]` result.  Here: each window's block at a point,
  what the body leaves in the output buffer as a function of the two input blocks, the body's triple, the proof data
  (the input buffers keep their blocks, the output buffer holds that function) and the body obligation at a generic point.
-/
import proofs.«152057_j44246753084001_1_alg».proof.Proof.Gen.KernelIdeal.Launch
import proofs.«152057_j44246753084001_1_alg».proof.Proof.Gen.KernelIdeal.Skeleton
import proofs.«152057_j44246753084001_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the first operand is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand, fetched once, is in its buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x128 := Rect.unit (s := S2048x128) ![0, 0] S2048x128.size inb_S2048x128_S2048x128_0_0
abbrev r0_1 : Rect S64x128 := Rect.unit (s := S64x128) ![0, 0] S64x128.size inb_S64x128_S64x128_0_0
abbrev r0_2 : Rect S2048x64 := Rect.unit (s := S2048x64) ![0, 0] S2048x64.size inb_S2048x64_S2048x64_0_0

/-! ## What the body leaves in the output buffer -/

/-- The output buffer after the body: its one store, of the product of the two loaded blocks. -/
def out0_2 (x0 : Vec F S2048x128 .f32) (x1 : Vec F S64x128 .f32) : Vec F S2048x64 .f32 :=
  View.canon [⟨r0_2, k0_pay1 (View.ld x0 r0_0) (View.ld x1 r0_1)⟩]

/-- The one store covers the buffer. -/
theorem cover0_2 (p0 : Vec F S2048x64 .f32) (y : S2048x64.Idx) :
    ∃ pc ∈ ([⟨r0_2, p0⟩] : List (View.Piece (Elt F) S2048x64 .f32)), y ∈ pc.1.set :=
  View.cover_of_tiled [⟨r0_2, p0⟩] S2048x64.size (by rfl) y

/-! ## The body's triple -/

set_option maxHeartbeats 1000000 in
/-- On whole buffers, the inputs' at contents `x0`, `x1` and the output's at anything, the body runs to the continuation
    holding the inputs' as they were and the output's at `out0_2 x0 x1`. -/
theorem sound_kernel0 (c : Dev nD) (E : Set ℕ) (i : grid0.Coords)
    (arg1 : Memref sig .tc .vmem S2048x128 .f32) (harg1 : arg1.IsWhole) (arg2 : Memref sig .tc .vmem S64x128 .f32) (harg2 : arg2.IsWhole)
    (arg3 : Memref sig .tc .vmem S2048x64 .f32) (harg3 : arg3.IsWhole)
    (x0 : Vec F S2048x128 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body at point `t` each input buffer at its block and the output
    buffer at `out0_2` of the two blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/-
  The second kernel region (the aggregation), first part: its blocks, its two branch conditions decided over the grid,
  where its output window is idle, and the body's run in each of its three control cases.

  The grid is 16 row tiles by 8 reduction blocks (128 points, the reduction coordinate running fastest): point `t` is
  row tile `t / 8`, reduction block `t % 8`.  The body keeps a `[1024, 64]` accumulator in a scratch buffer across the
  eight points of a row tile: it zeroes it where the reduction coordinate is 0, adds the product of the `[1024, 2048]`
  block of the first operand with the `[2048, 64]` block of the second at every point, and where the reduction
  coordinate is 7 stores the accumulator plus the `[1, 64]` bias row into the output window's buffer, which the
  pipeline writes back there and only there.
-/
import proofs.«152057_j44246753084001_1_alg».proof.Proof.Gen.KernelIdeal.Launch
import proofs.«152057_j44246753084001_1_alg».proof.Proof.Gen.KernelIdeal.Skeleton
import proofs.«152057_j44246753084001_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "The reduction coordinate is 0", as the body computes it. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "The reduction coordinate is 7", as the body computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last reduction block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last reduction block it is live. -/
theorem liveAt1_3 : ∀ t : Fin cfg1.N, cond1_1 (grid1.coords t) → cfg1.idle 3 (grid1.coords t) = false := by decide +kernel

/-! ## The buffers the body is called with -/

/-- One buffer of the output window, through which its contents are stated. -/
abbrev VO1_3 : View sig .tc .vmem S1024x64 .f32 := (Memref.whole cc1_stg3_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x64 .f32 := Memref.whole cc1_scratch0
abbrev VS1_0 : View sig .tc .vmem S1024x64 .f32 := scM1_0.view

/-! ## The body's run, case by case -/

-- (the run's proof term is large)
set_option maxHeartbeats 1000000 in
/-- The body on whole buffers at the first block of a row tile's reduction (the reduction coordinate is 0): the accumulator is zeroed, then the block's product added; nothing is stored into the output buffer, which is handed back as found.
    The pieces each written buffer ends with are the witness the run finds. -/
noncomputable def kernelRun1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__spmm_kernel i arg2 harg2 arg3 harg3 arg4 harg4 arg5 harg5 arg6 harg6) K } := by
  refine ⟨[], ?_, fun xi3 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

-- (the run's proof term is large)
set_option maxHeartbeats 1000000 in
/-- The body on whole buffers at a middle block of the reduction (the reduction coordinate is neither 0 nor 7): the block's product is added to what the point before left in the accumulator; nothing is stored into the output buffer, which is handed back as found.
    The pieces each written buffer ends with are the witness the run finds. -/
noncomputable def kernelRun1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__spmm_kernel i arg2 harg2 arg3 harg3 arg4 harg4 arg5 harg5 arg6 harg6) K } := by
  refine ⟨[], ?_, fun xi3 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

-- (the run's proof term is large)
set_option maxHeartbeats 1000000 in
/-- The body on whole buffers at the last block of the reduction (the reduction coordinate is 7): the block's product is added to what the point before left in the accumulator, and the accumulator plus the bias row is stored into the output buffer.
    The pieces each written buffer ends with are the witness the run finds. -/
noncomputable def kernelRun1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__spmm_kernel i arg2 harg2 arg3 harg3 arg4 harg4 arg5 harg5 arg6 harg6) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Region1.lean ====
/-
  The second kernel region (the aggregation), second part: what each control case leaves in the accumulator and in the
  output window's buffer, those contents point by point along the grid (a recursion: a point that is not the first of
  its row tile reads what the point before left in the accumulator), the region's invariant — before the first point
  every scoped buffer the pipeline does not stage at anything; afterwards the accumulator at what the point before
  left —, the proof data, and the body obligation at a generic point.
-/
import proofs.«152057_j44246753084001_1_alg».proof.Proof.Gen.KernelIdeal.Launch
import proofs.«152057_j44246753084001_1_alg».proof.Proof.Gen.KernelIdeal.Skeleton
import proofs.«152057_j44246753084001_1_alg».proof.Proof.Gen.KernelIdeal.Points
import proofs.«152057_j44246753084001_1_alg».proof.Proof.KI.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What case A leaves in the output window's buffer: its pieces read back (none: a placeholder nothing consults, the window being idle and not written back at the case's points). -/
def out1_A_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) : Vec F S1024x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator cover it. -/
theorem scover1_A_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) (y : S1024x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x64.size (by sl_kernel_rfl) y

/-- What case A leaves in the accumulator: its pieces read back. -/
def sout1_A_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) : Vec F S1024x64 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output window's buffer: its pieces read back (none: a placeholder nothing consults, the window being idle and not written back at the case's points). -/
def out1_B_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) : Vec F S1024x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator cover it. -/
theorem scover1_B_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) (y : S1024x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x64.size (by sl_kernel_rfl) y

/-- What case B leaves in the accumulator: its pieces read back. -/
def sout1_B_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output window's buffer covers it. -/
theorem cover1_C_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) (y : S1024x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x64.size (by sl_kernel_rfl) y

/-- What case C leaves in the output window's buffer: its pieces read back. -/
def out1_C_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) : Vec F S1024x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator cover it. -/
theorem scover1_C_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) (y : S1024x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x64.size (by sl_kernel_rfl) y

/-- What case C leaves in the accumulator: its pieces read back. -/
def sout1_C_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## Point by point -/

/-- What the output window's buffer and the accumulator hold after the body at position `n` (a pair): the case the
    position's reduction coordinate selects, a case that reads the accumulator over what position `n - 1` left. -/
def outsAt1 (c : Dev nD) : (n : ℕ) → n < cfg1.N → Vec F S1024x64 .f32 × Vec F S1024x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At the first block of a row tile. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle block: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last block: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that the region neither stages nor uses: the other region's staging buffers, each at anything. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class's invariant, with the accumulator taken out of the scoped rest. -/
theorem PhiA1_split (c : Dev nD) :
    (Pipeline.ΦA spec1 c : sProp 𝕄) ⊢ iprop(Rest1 (F := F) c ∗ (∃ d, owns (c : Thread nD τ) scM1_0 fullShare d) ∗ (∃ r, prngReg c r)) := by
  unfold Pipeline.ΦA Rest1; rw [scopedRest1_eq]; simp only [scM1_0, owns_whole]
  iintro ⟨⟨H1, H2, H3, H4, H5, HS⟩, Hg⟩
  isplitl [H1 H2 H3 H4 H5]
  · isplitl [H1]; · iexact H1
    isplitl [H2]; · iexact H2
    isplitl [H3]; · iexact H3
    isplitl [H4]; · iexact H4
    iexact H5
  isplitl [HS]; · iexact HS
  iexact Hg

/-- And put back. -/
theorem PhiA1_join (c : Dev nD) :
    iprop(Rest1 (F := F) c ∗ (∃ d, owns (c : Thread nD τ) scM1_0 fullShare d) ∗ (∃ r, prngReg c r)) ⊢ (Pipeline.ΦA spec1 c : sProp 𝕄) := by
  unfold Pipeline.ΦA Rest1; rw [scopedRest1_eq]; simp only [scM1_0, owns_whole]
  iintro ⟨⟨H1, H2, H3, H4, H5⟩, HS, Hg⟩
  isplitr [Hg]
  · isplitl [H1]; · iexact H1
    isplitl [H2]; · iexact H2
    isplitl [H3]; · iexact H3
    isplitl [H4]; · iexact H4
    isplitl [H5]; · iexact H5
    iexact HS
  iexact Hg

/-- The region's invariant before position `n`: before the first point the class's; afterwards the unused scoped
    buffers at anything, the accumulator at what the point before left, and the generator register at some state. -/
def PhiS1 (c : Dev nD) : (n : ℕ) → n ≤ cfg1.N → sProp 𝕄
  | 0, _ => Pipeline.ΦA spec1 c
  | n + 1, hn => iprop(Rest1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(Rest1 (F := F) c ∗ owns (c : Thread nD τ) scM1_0 fullShare ((outsAt1 V c (n - 1) (by omega)).2) ∗ (∃ r, prngReg c r)) := by
  cases n with
  | zero => exact absurd rfl hz
  | succ n => rfl

/-! ## The proof data -/

/-- The arrays as the region finds them; after the body at point `t` each input buffer at its block and the output
    buffer at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input buffers hold their blocks; the point's reduction coordinate says which case it is
    in; the invariant hands the body the accumulator at what the point before left (at anything before the first
    point, and at the first block of a row tile, where the body zeroes it) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Hrestof⟩
        ihave HΦ' := (PhiA1_split (F := F) c) $$ HΦ
        icases HΦ' with ⟨Hrest, HS0, Hg⟩
        icases Hrestof with ⟨Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨Hrest, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨Hrest, HS0, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨Hrest, HS0, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne]
  refine .trans ?_ (PhiA1_join (F := F) c)
  iintro ⟨Hrest, HS0, Hg⟩
  isplitl [Hrest]; · iexact Hrest
  isplitl [HS0]; · iexists _; iexact HS0
  iexact Hg

end Cert.KernelIdeal.Hand

end
-- ==== Proof.KI.Run.lean ====
/-
  The whole program's run, at any float instance: @main is the first kernel region, one host operation (the bias
  reshaped to a row), the second kernel region.  The unscoped buffers' contents are followed from the launch through
  the three items — a region leaves its arrays at what its write-backs make of them and every other buffer as it was,
  the host operation writes its result —, each region is entered with the contents the item before left, and after the
  last item every unscoped buffer holds the last of these contents.  From that: the argument arrays end as launched.
-/
import proofs.«152057_j44246753084001_1_alg».proof.Proof.Gen.KernelIdeal.Launch
import proofs.«152057_j44246753084001_1_alg».proof.Proof.Gen.KernelIdeal.Skeleton
import proofs.«152057_j44246753084001_1_alg».proof.Proof.Gen.KernelIdeal.Points
import proofs.«152057_j44246753084001_1_alg».proof.Proof.KI.Region0
import proofs.«152057_j44246753084001_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 (c : Dev nD) : Valuation τ sig (Elt F) := fun b => m (c, b)
abbrev V0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operation (the second region's entry). -/
abbrev W2 (c : Dev nD) : Valuation τ sig (Elt F) := StableHlo.after hostOps1 (W1 m c)
abbrev V2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- `main_arg0` ends as launched: no host operation writes it and no region may change it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

/-- `main_arg1` ends as launched: no host operation writes it and no region may change it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := W1_of_ne m c main_arg1 (by decide)
    _ = m ((c : Thread nD τ).loc main_arg1) := rfl

/-- `main_arg2` ends as launched: no host operation writes it and no region may change it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 1).trans (((dat0 (V0 m) c).arrAt_in 1 rfl _).trans (A_eq0 (V0 m) c 1))
    _ = m ((c : Thread nD τ).loc main_arg2) := rfl

/-- `main_arg3` ends as launched: no host operation writes it and no region may change it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

/-! ## The proof data family and the thread state -/

/-- No pipeline has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

-- a library lemma stated over the pinned configuration unifies with the printed one only when unification may unfold
-- plain definitions in a metavariable's type
set_option backward.isDefEq.respectTransparency.types false in
/-- Region 0 over the thread state: its arrays split out of the unscoped buffers at entry and put back at the exit
    contents; the generator register into the region's invariant and out; nothing owed; no semaphore of its own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: its arrays split out of the unscoped buffers at entry and put back at the exit
    contents; the generator register into the region's invariant and out; nothing owed; no semaphore of its own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) admH (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.Spec.lean ====
/-
  The function both programs compute, over the extended reals, index by index.

  With `x : [16384, 128]`, `adj : [16384, 16384]`, `w : [64, 128]` and `b : [64]`:
  the projection `h (r, j) = ∑ l, x (r, l) · w (j, l)` (the rows of `x` against the rows of `w`), and the
  aggregation `out (r, j) = (∑ k, adj (r, k) · h (k, j)) + b j`.
  The aggregation is also stated over any `h` and a `[1, 64]` row `b2`, which is how a program that computes
  `h` first and reshapes `b` to a row reads; `agg_proj_eq_out` joins the two.
-/
import Idealize.ShloMosaic.PureOps.Ideal
import Idealize.ShloMosaic.Lib.ValueIdx

noncomputable section

namespace Cert.Hand.Spec

open Idealize.ShloMosaic Idealize.ShloMosaic.ValueIdx
open scoped BigOperators

/-- One entry of the projection: row `r` of `x` against row `j` of `w`. -/
def projAt (x : (⟨2, ![16384, 128]⟩ : Shape).Idx → EReal) (w : (⟨2, ![64, 128]⟩ : Shape).Idx → EReal)
    (r : Fin 16384) (j : Fin 64) : EReal :=
  ∑ l : Fin 128, x (ix2 r l) * w (ix2 j l)

/-- The projection as an array. -/
def proj (x : (⟨2, ![16384, 128]⟩ : Shape).Idx → EReal) (w : (⟨2, ![64, 128]⟩ : Shape).Idx → EReal) :
    (⟨2, ![16384, 64]⟩ : Shape).Idx → EReal :=
  fun i => projAt x w (i 0) (i 1)

theorem proj_ix2 (x : (⟨2, ![16384, 128]⟩ : Shape).Idx → EReal) (w : (⟨2, ![64, 128]⟩ : Shape).Idx → EReal)
    (r : Fin 16384) (j : Fin 64) : proj x w (ix2 r j) = projAt x w r j := rfl

/-- One entry of the aggregation of any `h` with a row `b2`. -/
def aggAt (adj : (⟨2, ![16384, 16384]⟩ : Shape).Idx → EReal) (h : (⟨2, ![16384, 64]⟩ : Shape).Idx → EReal)
    (b2 : (⟨2, ![1, 64]⟩ : Shape).Idx → EReal) (r : Fin 16384) (j : Fin 64) : EReal :=
  (∑ k : Fin 16384, adj (ix2 r k) * h (ix2 k j)) + b2 (ix2 (0 : Fin 1) j)

/-- The aggregation as an array. -/
def agg (adj : (⟨2, ![16384, 16384]⟩ : Shape).Idx → EReal) (h : (⟨2, ![16384, 64]⟩ : Shape).Idx → EReal)
    (b2 : (⟨2, ![1, 64]⟩ : Shape).Idx → EReal) : (⟨2, ![16384, 64]⟩ : Shape).Idx → EReal :=
  fun i => aggAt adj h b2 (i 0) (i 1)

theorem agg_ix2 (adj : (⟨2, ![16384, 16384]⟩ : Shape).Idx → EReal) (h : (⟨2, ![16384, 64]⟩ : Shape).Idx → EReal)
    (b2 : (⟨2, ![1, 64]⟩ : Shape).Idx → EReal) (r : Fin 16384) (j : Fin 64) : agg adj h b2 (ix2 r j) = aggAt adj h b2 r j := rfl

/-- One entry of the whole layer. -/
def outAt (x : (⟨2, ![16384, 128]⟩ : Shape).Idx → EReal) (adj : (⟨2, ![16384, 16384]⟩ : Shape).Idx → EReal)
    (w : (⟨2, ![64, 128]⟩ : Shape).Idx → EReal) (b : (⟨1, ![64]⟩ : Shape).Idx → EReal) (r : Fin 16384) (j : Fin 64) : EReal :=
  (∑ k : Fin 16384, adj (ix2 r k) * projAt x w k j) + b (ix1 j)

/-- The whole layer as an array. -/
def out (x : (⟨2, ![16384, 128]⟩ : Shape).Idx → EReal) (adj : (⟨2, ![16384, 16384]⟩ : Shape).Idx → EReal)
    (w : (⟨2, ![64, 128]⟩ : Shape).Idx → EReal) (b : (⟨1, ![64]⟩ : Shape).Idx → EReal) :
    (⟨2, ![16384, 64]⟩ : Shape).Idx → EReal :=
  fun i => outAt x adj w b (i 0) (i 1)

/-- The aggregation of the projection with the bias laid out as a row is the whole layer. -/
theorem agg_proj_eq_out (x : (⟨2, ![16384, 128]⟩ : Shape).Idx → EReal) (adj : (⟨2, ![16384, 16384]⟩ : Shape).Idx → EReal)
    (w : (⟨2, ![64, 128]⟩ : Shape).Idx → EReal) (b : (⟨1, ![64]⟩ : Shape).Idx → EReal)
    (b2 : (⟨2, ![1, 64]⟩ : Shape).Idx → EReal) (hb : ∀ j : Fin 64, b2 (ix2 (0 : Fin 1) j) = b (ix1 j)) :
    agg adj (proj x w) b2 = out x adj w b := by
  funext i
  obtain ⟨r, j, rfl⟩ : ∃ (r : Fin 16384) (j : Fin 64), i = ix2 r j := ⟨i 0, i 1, eq_ix2 i⟩
  show aggAt adj (proj x w) b2 r j = outAt x adj w b r j
  unfold aggAt outAt
  rw [hb]
  rfl

end Cert.Hand.Spec

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KI.Value0.lean ====
/-
  What the first kernel region leaves in its result array, at the ideal values: the projection `Cert.Hand.Spec.proj`
  of the two operands as the region finds them.  Point `t` of the grid writes back rows `2048 t … 2048 t + 2047`; the
  block it writes is the product of rows `2048 t …` of the first operand with the transposed second operand, which is
  that block of the projection; the eight blocks cover the `[16384, 64]` array.
-/
import proofs.«152057_j44246753084001_1_alg».proof.Proof.KI.Region0
import proofs.«152057_j44246753084001_1_alg».proof.Proof.Spec
import proofs.«152057_j44246753084001_1_alg».proof.Proof.LibDotFormats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen
open scoped BigOperators

/-! ## The body's product at an index -/

/-- The zero offsets of a whole-buffer access, as a constant function. -/
theorem zero_offsets0 : (![0, 0] : Fin 2 → Nat) = fun _ => 0 := funext fun a => by fin_cases a <;> rfl

/-- Entry `(p, q)` of what the body stores: the product of the first block with the transpose of the second into the
    zero accumulator is `∑ l, x0 (p, l) · x1 (q, l)` (a narrowing of the format is the identity on extended reals, and
    entry `(l, q)` of the transpose is entry `(q, l)` of the operand). -/
theorem pay0_apply (x0 : Vec Ideal S2048x128 .f32) (x1 : Vec Ideal S64x128 .f32) (p : Fin 2048) (q : Fin 64) :
    k0_pay1 x0 x1 (ix2 p q) = ∑ l : Fin 128, x0 (ix2 p l) * x1 (ix2 q l) := by
  unfold k0_pay1
  refine (Cert.LibDotFormats.matmul_cols_zero_apply (A := 2048) (K := 128) (B := 64) _ rfl rfl rfl rfl rfl rfl none _ _ p q).trans ?_
  refine Finset.sum_congr rfl fun l _ => ?_
  rw [truncf_apply]
  congr 1
  refine transpose_apply (s := S64x128) (t := S128x64) [1, 0] _ _ (ix2 l q) (ix2 q l) ?_
  intro b
  match b with
  | ⟨0, _⟩ => rfl
  | ⟨1, _⟩ => rfl

/-! ## The block indices over the grid -/

/-- At point `t` the first operand's and the result's block index is `(t, 0)`, the second operand's `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks

variable (V : (c : Dev nD) → (b : Ref sig .tc) → Buf (Elt Ideal) ((c : Thread nD τ).loc b))

/-! ## Each block, read where it lies in its array -/

/-- Entry `(p, l)` of the first operand's block at point `t` is entry `(2048 t + p, l)` of the operand. -/
theorem iblk0_0_apply (c : Dev nD) (t : Fin cfg0.N) (p : Fin 2048) (l : Fin 128) (r : Fin 16384)
    (hr : r.val = t.val * 2048 + p.val) :
    (iblk0 V c 0 t : Vec Ideal S2048x128 .f32) (ix2 p l) = (V c main_arg0 : S16384x128.Idx → Elt Ideal .f32) (ix2 r l) := by
  obtain ⟨e0, e1, -⟩ := idx_facts0 t
  unfold iblk0
  rw [View.read_apply]
  show (V c main_arg0 : S16384x128.Idx → Elt Ideal .f32) _ = _
  congr 1
  funext a; apply Fin.ext
  match a with
  | ⟨0, _⟩ => show win0_0.index t (0 : Fin 2) * 2048 + 1 * p.val = r.val; omega
  | ⟨1, _⟩ => show win0_0.index t (1 : Fin 2) * 128 + 1 * l.val = l.val; omega

/-- The second operand's block, at every point, is the operand itself. -/
theorem iblk0_1_apply (c : Dev nD) (t : Fin cfg0.N) (q : Fin 64) (l : Fin 128) :
    (iblk0 V c 1 t : Vec Ideal S64x128 .f32) (ix2 q l) = (V c main_arg2 : S64x128.Idx → Elt Ideal .f32) (ix2 q l) := by
  obtain ⟨-, -, e2, e3, -⟩ := idx_facts0 t
  unfold iblk0
  rw [View.read_apply]
  show (V c main_arg2 : S64x128.Idx → Elt Ideal .f32) _ = _
  congr 1
  funext a; apply Fin.ext
  match a with
  | ⟨0, _⟩ => show win0_1.index t (0 : Fin 2) * 64 + 1 * q.val = q.val; omega
  | ⟨1, _⟩ => show win0_1.index t (1 : Fin 2) * 128 + 1 * l.val = l.val; omega

/-- Entry `(p, q)` of the result's block at point `t` sits at `(2048 t + p, q)` of the result array. -/
theorem blk0_2_emb (t : Fin cfg0.N) (p : Fin 2048) (q : Fin 64) (r : Fin 16384) (hr : r.val = t.val * 2048 + p.val) :
    (((cfg0.win 2).blk t).view.emb (ix2 p q) : S16384x64.Idx) = ix2 r q := by
  obtain ⟨-, -, -, -, e4, e5⟩ := idx_facts0 t
  funext a; apply Fin.ext
  match a with
  | ⟨0, _⟩ => show win0_2.index t (0 : Fin 2) * 2048 + 1 * p.val = r.val; omega
  | ⟨1, _⟩ => show win0_2.index t (1 : Fin 2) * 64 + 1 * q.val = q.val; omega

/-! ## What a point writes back -/

/-- Point `t` writes back block `t` of the projection: entry `(p, q)` of the stored product is
    `∑ l, x (2048 t + p, l) · w (q, l)`, the projection at `(2048 t + p, q)`. -/
theorem flushed0_2_eq (c : Dev nD) (t : Fin cfg0.N) :
    (dat0 (F := Ideal) V c).flushed 2 t
      = ((cfg0.win 2).blk t).view.read (Elt Ideal) (Cert.Hand.Spec.proj (V c main_arg0) (V c main_arg2)) := by
  show (cfg0.win 2).cut (grid0.coords t) ((dat0 V c).after 2 t) = _
  rw [after0_2]
  unfold out0_2
  rw [View.canon_unit_zero zero_offsets0]
  simp only [View.ld_unit_zero (S := S2048x128) zero_offsets0, View.ld_unit_zero (S := S64x128) zero_offsets0]
  funext j
  obtain ⟨p, q, rfl⟩ : ∃ (p : Fin 2048) (q : Fin 64), j = ix2 p q := ⟨j 0, j 1, eq_ix2 j⟩
  have ht : t.val < 8 := t.isLt
  have hr : t.val * 2048 + p.val < 16384 := by have := p.isLt; omega
  show k0_pay1 (iblk0 V c 0 t) (iblk0 V c 1 t) (ix2 p q)
    = Cert.Hand.Spec.proj (V c main_arg0) (V c main_arg2) (((cfg0.win 2).blk t).view.emb (ix2 p q))
  rw [pay0_apply, blk0_2_emb t p q ⟨_, hr⟩ rfl, Cert.Hand.Spec.proj_ix2]
  unfold Cert.Hand.Spec.projAt
  refine Finset.sum_congr rfl fun l _ => ?_
  rw [iblk0_0_apply V c t p l ⟨_, hr⟩ rfl, iblk0_1_apply V c t q l]

end Blocks

/-! ## The blocks cover the array -/

/-- An index of the result array is in point `t`'s block iff each coordinate is in the block's range on its axis. -/
theorem mem_blk0_2 (t : Fin cfg0.N) (i : S16384x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v0).slice (win0_2.rect t)).set ↔ _
  rw [View.set_slice_whole, Rect.mem_set_unit]
  exact Iff.rfl

/-- Row `r` of the result array lies in the block of point `r / 2048`, which is written back. -/
theorem covered0_2 (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ : ∃ t : Fin cfg0.N, t.val = (i 0).val / 2048 :=
    ⟨⟨(i 0).val / 2048, by rw [show cfg0.N = 8 from N_0]; omega⟩, rfl⟩
  obtain ⟨-, -, -, -, e4, e5⟩ := idx_facts0 t
  refine ⟨t, flush0_2 t, ?_⟩
  rw [mem_blk0_2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-! ## The array after the region -/

/-- The result array of the first region after its eight write-backs is the projection of its two operands. -/
theorem final0 (V : (c : Dev nD) → (b : Ref sig .tc) → Buf (Elt Ideal) ((c : Thread nD τ).loc b)) (c : Dev nD) :
    (dat0 (F := Ideal) V c).arrAt 2 cfg0.N = Cert.Hand.Spec.proj (V c main_arg0) (V c main_arg2) :=
  (dat0 (F := Ideal) V c).arrAt_eq_of_cover 2 (Cert.Hand.Spec.proj (V c main_arg0) (V c main_arg2))
    (fun t _ => flushed0_2_eq V c t) covered0_2

end Cert.KernelIdeal.Hand

end
-- ==== Proof.KI.Pieces1.lean ====
/-
  What the second kernel region's control cases leave, as the body's arithmetic: at the first block of a row tile the
  accumulator holds the block's product added to zero; at any later block the block's product added to what the point
  before left; and at the last block the output buffer holds that accumulator plus the bias row spread over the rows.
-/
import proofs.«152057_j44246753084001_1_alg».proof.Proof.Gen.KernelIdeal.Launch
import proofs.«152057_j44246753084001_1_alg».proof.Proof.Gen.KernelIdeal.Skeleton
import proofs.«152057_j44246753084001_1_alg».proof.Proof.Gen.KernelIdeal.Points
import proofs.«152057_j44246753084001_1_alg».proof.Proof.KI.Region1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The found pieces, read as the body's arithmetic

Every load and every store of the body is of a whole buffer: through the unit rectangle at zero offsets of the
buffer's own sizes.  A load through it reads the buffer's contents; a store through it, made last, leaves its
payload whatever was stored before; and a load after such a store reads that store's payload. -/

/-- The offsets of every rectangle of the body are zero. -/
theorem pieces1_zero_off : (![0, 0] : Fin 2 → Nat) = fun _ => 0 := funext fun a => by fin_cases a <;> rfl

/-- Case A's accumulator: the zero fill is stored, read back, and the block's product added to it. -/
theorem sout1_A_0_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1x64 .f32) :
    sout1_A_0 c i arg2 harg2 arg3 harg3 arg4 harg4 arg5 harg5 arg6 harg6 hc0 hc1 x0 x1 x2 = k1_pay2 x0 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x64) pieces1_zero_off, View.readCov_unit_zero (S := S1024x64) _ pieces1_zero_off]
  simp only [View.readAt_eq_ld, harg2.read_unread, harg3.read_unread,
    View.ld_unit_zero (S := S1024x2048) pieces1_zero_off, View.ld_unit_zero (S := S2048x64) pieces1_zero_off]

/-- Case B's accumulator: the block's product added to what the accumulator held. -/
theorem sout1_B_0_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1x64 .f32) (xs0 : Vec F S1024x64 .f32) :
    sout1_B_0 c i arg2 harg2 arg3 harg3 arg4 harg4 arg5 harg5 arg6 harg6 hc0 hc1 x0 x1 x2 xs0 = k1_pay2 x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero pieces1_zero_off]
  simp only [View.readAt_eq_ld, harg2.read_unread, harg3.read_unread, harg6.read_unread,
    View.ld_unit_zero (S := S1024x2048) pieces1_zero_off, View.ld_unit_zero (S := S2048x64) pieces1_zero_off,
    View.ld_unit_zero (S := S1024x64) pieces1_zero_off]

/-- Case C's accumulator: as in case B. -/
theorem sout1_C_0_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) :
    sout1_C_0 c i arg2 harg2 arg3 harg3 arg4 harg4 arg5 harg5 arg6 harg6 hc0 hc1 x0 x1 x2 xs0 = k1_pay2 x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero pieces1_zero_off]
  simp only [View.readAt_eq_ld, harg2.read_unread, harg3.read_unread, harg6.read_unread,
    View.ld_unit_zero (S := S1024x2048) pieces1_zero_off, View.ld_unit_zero (S := S2048x64) pieces1_zero_off,
    View.ld_unit_zero (S := S1024x64) pieces1_zero_off]

/-- Case C's output buffer: the accumulator just stored is read back and the bias row added to it. -/
theorem out1_C_3_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1x64 .f32) (xs0 : Vec F S1024x64 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero pieces1_zero_off]
  simp only [View.readAt_eq_ld, harg2.read_unread, harg3.read_unread, harg4.read_unread, harg6.read_unread,
    View.readCov_unit_zero (S := S1024x64) _ pieces1_zero_off,
    View.ld_unit_zero (S := S1024x2048) pieces1_zero_off, View.ld_unit_zero (S := S2048x64) pieces1_zero_off,
    View.ld_unit_zero (S := S1x64) pieces1_zero_off, View.ld_unit_zero (S := S1024x64) pieces1_zero_off]

/-! ## The three facts about the recursion over the points -/

/-- At the first block of a row tile the accumulator is the block's product added to the zero fill. -/
theorem scr_first (c : Dev nD) (t : Fin cfg1.N) (h0 : t.val % 8 = 0) :
    (outsAt1 V c t.val t.isLt).2 = k1_pay2 (iblk1 V c 0 t) (iblk1 V c 1 t) (k1_pay1 (F := F)) := by
  have h1 : ¬t.val % 8 = 7 := by omega
  rw [outsAt1_A V c t h0 h1]
  dsimp only
  exact sout1_A_0_eq (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At a later block the accumulator is the block's product added to what the point before left. -/
theorem scr_next (c : Dev nD) (t : Fin cfg1.N) (h0 : ¬t.val % 8 = 0) :
    (outsAt1 V c t.val t.isLt).2
      = k1_pay2 (iblk1 V c 0 t) (iblk1 V c 1 t) (outsAt1 V c (t.val - 1) (Nat.lt_of_le_of_lt (Nat.sub_le _ _) t.isLt)).2 := by
  by_cases h1 : t.val % 8 = 7
  · rw [outsAt1_C V c t h0 h1]
    dsimp only
    exact sout1_C_0_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_0_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At the last block the output buffer is the accumulator plus the bias row. -/
theorem out_last (c : Dev nD) (t : Fin cfg1.N) (h1 : t.val % 8 = 7) :
    (outsAt1 V c t.val t.isLt).1 = k1_pay3 (outsAt1 V c t.val t.isLt).2 (iblk1 V c 2 t) := by
  have h0 : ¬t.val % 8 = 0 := by omega
  rw [outsAt1_C V c t h0 h1]
  dsimp only
  rw [sout1_C_0_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
  exact out1_C_3_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Cert.KernelIdeal.Hand

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.KI.Value1.lean ====
/-
  What the second kernel region leaves in its result array, at the ideal values: the aggregation `Cert.Hand.Spec.agg`
  of its three operands as the region finds them.  Row tile `a` (rows `1024 a … 1024 a + 1023`) is written back once,
  at the last of its eight reduction blocks; what is written is the bias row plus the accumulator, which by then is the
  sum over the eight blocks `k` of the products of the `[1024, 2048]` block `(a, k)` of the first operand with the
  `[2048, 64]` block `k` of the second: a sum over eight blocks of 2048 consecutive indices, that is over all 16384.
-/
import proofs.«152057_j44246753084001_1_alg».proof.Proof.KI.Pieces1
import proofs.«152057_j44246753084001_1_alg».proof.Proof.Spec
import proofs.«152057_j44246753084001_1_alg».proof.Proof.LibDotFormats
import proofs.«152057_j44246753084001_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen
open scoped BigOperators

/-! ## The body's arithmetic at an index -/

/-- The zero fill of the accumulator is zero everywhere. -/
theorem pay1_zero_apply (p : Fin 1024) (q : Fin 64) : (k1_pay1 (F := Ideal)) (ix2 p q) = 0 := by
  unfold k1_pay1
  rw [shapeCast_self]
  exact Ideal.ofBits_zero_f32

/-- Entry `(p, q)` of the accumulator's update: what it held plus `∑ kk, x0 (p, kk) · x1 (kk, q)`, the product of the
    two blocks into the zero accumulator (a narrowing of the format and a reshape to the same shape are the identity). -/
theorem pay1_acc_apply (x0 : Vec Ideal S1024x2048 .f32) (x1 : Vec Ideal S2048x64 .f32) (acc : Vec Ideal S1024x64 .f32)
    (p : Fin 1024) (q : Fin 64) :
    k1_pay2 x0 x1 acc (ix2 p q) = acc (ix2 p q) + ∑ kk : Fin 2048, x0 (ix2 p kk) * x1 (ix2 kk q) := by
  unfold k1_pay2
  rw [shapeCast_self, shapeCast_self]
  refine (addf_apply _ _ _).trans ?_
  congr 1
  exact Cert.LibDotFormats.matmul_cols_zero_apply (A := 1024) (K := 2048) (B := 64) _ rfl rfl rfl rfl rfl rfl none _ _ p q

/-- Entry `(p, q)` of what the last block of a row tile stores: the accumulator plus entry `q` of the bias row. -/
theorem pay1_out_apply (acc : Vec Ideal S1024x64 .f32) (b : Vec Ideal S1x64 .f32) (p : Fin 1024) (q : Fin 64) :
    k1_pay3 acc b (ix2 p q) = acc (ix2 p q) + b (ix2 (0 : Fin 1) q) := by
  unfold k1_pay3
  rw [shapeCast_self]
  refine (addf_apply _ _ _).trans ?_
  congr 1
  refine broadcastTo_apply (s := S1x64) (t := S1024x64) _ _ (ix2 p q) (ix2 (0 : Fin 1) q) ?_
  intro a
  match a with
  | ⟨0, _⟩ => rfl
  | ⟨1, _⟩ => rfl

/-! ## The block indices over the grid -/

/-- Point `t` is row tile `t / 8`, reduction block `t % 8`: the first operand's block index there is `(t / 8, t % 8)`,
    the second's `(t % 8, 0)`, the bias row's `(0, 0)` and the result's `(t / 8, 0)`. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

section Blocks

variable (V : (c : Dev nD) → (b : Ref sig .tc) → Buf (Elt Ideal) ((c : Thread nD τ).loc b))

/-! ## Each block, read where it lies in its array -/

/-- The `[1024, 2048]` block of the first operand at point `t`. -/
abbrev adjblk1 (c : Dev nD) (t : Fin cfg1.N) : Vec Ideal S1024x2048 .f32 := iblk1 V c 0 t
/-- The `[2048, 64]` block of the second operand at point `t`. -/
abbrev hblk1 (c : Dev nD) (t : Fin cfg1.N) : Vec Ideal S2048x64 .f32 := iblk1 V c 1 t
/-- The bias row at point `t`. -/
abbrev bblk1 (c : Dev nD) (t : Fin cfg1.N) : Vec Ideal S1x64 .f32 := iblk1 V c 2 t

/-- Entry `(p, kk)` of the first operand's block at point `t` is entry `(1024 (t / 8) + p, 2048 (t % 8) + kk)` of the operand. -/
theorem adjblk1_apply (c : Dev nD) (t : Fin cfg1.N) (p : Fin 1024) (kk : Fin 2048) (r n : Fin 16384)
    (hr : r.val = t.val / 8 * 1024 + p.val) (hn : n.val = t.val % 8 * 2048 + kk.val) :
    adjblk1 V c t (ix2 p kk) = (V c main_arg1 : S16384x16384.Idx → Elt Ideal .f32) (ix2 r n) := by
  obtain ⟨e0, e1, -⟩ := idx_facts1 t
  unfold adjblk1 iblk1
  rw [View.read_apply]
  show (V c main_arg1 : S16384x16384.Idx → Elt Ideal .f32) _ = _
  congr 1
  funext a; apply Fin.ext
  match a with
  | ⟨0, _⟩ => show win1_0.index t (0 : Fin 2) * 1024 + 1 * p.val = r.val; omega
  | ⟨1, _⟩ => show win1_0.index t (1 : Fin 2) * 2048 + 1 * kk.val = n.val; omega

/-- Entry `(kk, q)` of the second operand's block at point `t` is entry `(2048 (t % 8) + kk, q)` of the operand. -/
theorem hblk1_apply (c : Dev nD) (t : Fin cfg1.N) (kk : Fin 2048) (q : Fin 64) (n : Fin 16384)
    (hn : n.val = t.val % 8 * 2048 + kk.val) :
    hblk1 V c t (ix2 kk q) = (V c main_v0 : S16384x64.Idx → Elt Ideal .f32) (ix2 n q) := by
  obtain ⟨-, -, e2, e3, -⟩ := idx_facts1 t
  unfold hblk1 iblk1
  rw [View.read_apply]
  show (V c main_v0 : S16384x64.Idx → Elt Ideal .f32) _ = _
  congr 1
  funext a; apply Fin.ext
  match a with
  | ⟨0, _⟩ => show win1_1.index t (0 : Fin 2) * 2048 + 1 * kk.val = n.val; omega
  | ⟨1, _⟩ => show win1_1.index t (1 : Fin 2) * 64 + 1 * q.val = q.val; omega

/-- The bias row's block, at every point, is the row itself. -/
theorem bblk1_apply (c : Dev nD) (t : Fin cfg1.N) (q : Fin 64) :
    bblk1 V c t (ix2 (0 : Fin 1) q) = (V c main_v1 : S1x64.Idx → Elt Ideal .f32) (ix2 (0 : Fin 1) q) := by
  obtain ⟨-, -, -, -, e4, e5, -⟩ := idx_facts1 t
  unfold bblk1 iblk1
  rw [View.read_apply]
  show (V c main_v1 : S1x64.Idx → Elt Ideal .f32) _ = _
  congr 1
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- Entry `(p, q)` of the result's block at point `t` sits at `(1024 (t / 8) + p, q)` of the result array. -/
theorem blk1_3_emb (t : Fin cfg1.N) (p : Fin 1024) (q : Fin 64) (r : Fin 16384) (hr : r.val = t.val / 8 * 1024 + p.val) :
    (((cfg1.win 3).blk t).view.emb (ix2 p q) : S16384x64.Idx) = ix2 r q := by
  obtain ⟨-, -, -, -, -, -, e6, e7⟩ := idx_facts1 t
  funext a; apply Fin.ext
  match a with
  | ⟨0, _⟩ => show win1_3.index t (0 : Fin 2) * 1024 + 1 * p.val = r.val; omega
  | ⟨1, _⟩ => show win1_3.index t (1 : Fin 2) * 64 + 1 * q.val = q.val; omega

/-! ## The accumulator along a row tile -/

/-- The contribution of reduction block `kb` to entry `(r, q)` of the aggregation's sum:
    `∑ kk < 2048, adj (r, 2048 kb + kk) · h (2048 kb + kk, q)` (zero past the eight blocks). -/
def blockTerm1 (adj : S16384x16384.Idx → EReal) (h : S16384x64.Idx → EReal) (r : Fin 16384) (q : Fin 64) (kb : ℕ) : EReal :=
  if hk : kb < 8 then
    ∑ kk : Fin 2048, adj (ix2 r ⟨2048 * kb + kk.val, by have := kk.isLt; omega⟩) * h (ix2 ⟨2048 * kb + kk.val, by have := kk.isLt; omega⟩ q)
  else 0

/-- The product of the two blocks at point `t`, at `(p, q)`, is block `t % 8`'s contribution to row `1024 (t / 8) + p`. -/
theorem prod1_eq_blockTerm (c : Dev nD) (t : Fin cfg1.N) (p : Fin 1024) (q : Fin 64) (r : Fin 16384)
    (hr : r.val = t.val / 8 * 1024 + p.val) :
    ∑ kk : Fin 2048, adjblk1 V c t (ix2 p kk) * hblk1 V c t (ix2 kk q)
      = blockTerm1 (V c main_arg1) (V c main_v0) r q (t.val % 8) := by
  unfold blockTerm1
  rw [dif_pos (Nat.mod_lt _ (by decide))]
  refine Finset.sum_congr rfl fun kk _ => ?_
  rw [adjblk1_apply V c t p kk r ⟨2048 * (t.val % 8) + kk.val, by have := kk.isLt; omega⟩ hr (by show 2048 * (t.val % 8) + kk.val = _; omega),
    hblk1_apply V c t kk q ⟨2048 * (t.val % 8) + kk.val, by have := kk.isLt; omega⟩ (by show 2048 * (t.val % 8) + kk.val = _; omega)]

/-- THE ACCUMULATOR after point `n`, at `(p, q)`: the contributions of the reduction blocks `0 … n % 8` to row
    `1024 (n / 8) + p`.  At the first block of a row tile it is zero plus the block's product; at a later one the block's
    product is added to what the point before (same row tile, one block earlier) left. -/
theorem acc1_closed (c : Dev nD) (p : Fin 1024) (q : Fin 64) :
    ∀ (n : ℕ) (hn : n < cfg1.N) (r : Fin 16384) (hr : r.val = n / 8 * 1024 + p.val),
      (outsAt1 V c n hn).2 (ix2 p q) = ∑ kb ∈ Finset.range (n % 8 + 1), blockTerm1 (V c main_arg1) (V c main_v0) r q kb
  | 0, hn, r, hr => by
    have e : (outsAt1 V c 0 hn).2 = k1_pay2 (adjblk1 V c ⟨0, hn⟩) (hblk1 V c ⟨0, hn⟩) (k1_pay1 (F := Ideal)) :=
      scr_first V c ⟨0, hn⟩ rfl
    rw [e, pay1_acc_apply, pay1_zero_apply, zero_add, prod1_eq_blockTerm V c ⟨0, hn⟩ p q r hr]
    exact (Finset.sum_range_one _).symm
  | m + 1, hn, r, hr => by
    by_cases h0 : (m + 1) % 8 = 0
    · have e : (outsAt1 V c (m + 1) hn).2 = k1_pay2 (adjblk1 V c ⟨m + 1, hn⟩) (hblk1 V c ⟨m + 1, hn⟩) (k1_pay1 (F := Ideal)) :=
        scr_first V c ⟨m + 1, hn⟩ h0
      rw [e, pay1_acc_apply, pay1_zero_apply, zero_add, prod1_eq_blockTerm V c ⟨m + 1, hn⟩ p q r hr]
      show blockTerm1 _ _ r q ((m + 1) % 8) = _
      rw [h0]
      exact (Finset.sum_range_one _).symm
    · have hm : m < cfg1.N := Nat.lt_of_succ_lt hn
      have e : (outsAt1 V c (m + 1) hn).2 = k1_pay2 (adjblk1 V c ⟨m + 1, hn⟩) (hblk1 V c ⟨m + 1, hn⟩) (outsAt1 V c m hm).2 :=
        scr_next V c ⟨m + 1, hn⟩ h0
      have hk : (m + 1) % 8 = m % 8 + 1 := by omega
      rw [e, pay1_acc_apply, acc1_closed c p q m hm r (by omega), prod1_eq_blockTerm V c ⟨m + 1, hn⟩ p q r hr]
      show _ + blockTerm1 _ _ r q ((m + 1) % 8) = _
      rw [hk, Finset.sum_range_succ _ (m % 8 + 1)]

/-- The contributions of the eight reduction blocks make up the whole sum `∑ n < 16384, adj (r, n) · h (n, q)`:
    eight blocks of 2048 consecutive indices are the 16384 indices. -/
theorem sum_blockTerm1 (adj : S16384x16384.Idx → EReal) (h : S16384x64.Idx → EReal) (r : Fin 16384) (q : Fin 64) :
    ∑ kb ∈ Finset.range 8, blockTerm1 adj h r q kb = ∑ n : Fin 16384, adj (ix2 r n) * h (ix2 n q) := by
  rw [Finset.sum_range]
  refine Eq.trans ?_ (Cert.BlockSum.sum_blocks 8 2048 (fun n : Fin (8 * 2048) => adj (ix2 r n) * h (ix2 n q)))
  refine Finset.sum_congr rfl fun b _ => ?_
  unfold blockTerm1
  rw [dif_pos b.isLt]

/-! ## What a point writes back -/

/-- A point at the last block of row tile `a` writes back block `a` of the aggregation: entry `(p, q)` of what it stored
    is the whole sum for row `1024 a + p` plus entry `q` of the bias row. -/
theorem flushed1_3_eq (c : Dev nD) (t : Fin cfg1.N) (h7 : t.val % 8 = 7) :
    (dat1 (F := Ideal) V c).flushed 3 t
      = ((cfg1.win 3).blk t).view.read (Elt Ideal) (Cert.Hand.Spec.agg (V c main_arg1) (V c main_v0) (V c main_v1)) := by
  show (cfg1.win 3).cut (grid1.coords t) ((dat1 V c).after 3 t) = _
  rw [after1_3, out_last V c t h7]
  funext j
  obtain ⟨p, q, rfl⟩ : ∃ (p : Fin 1024) (q : Fin 64), j = ix2 p q := ⟨j 0, j 1, eq_ix2 j⟩
  have ht : t.val < 128 := t.isLt
  have hr : t.val / 8 * 1024 + p.val < 16384 := by have := p.isLt; omega
  show k1_pay3 (outsAt1 V c t.val t.isLt).2 (bblk1 V c t) (ix2 p q)
    = Cert.Hand.Spec.agg (V c main_arg1) (V c main_v0) (V c main_v1) (((cfg1.win 3).blk t).view.emb (ix2 p q))
  have h8 : t.val % 8 + 1 = 8 := by omega
  unfold Cert.Hand.Spec.agg Cert.Hand.Spec.aggAt
  rw [pay1_out_apply, blk1_3_emb t p q ⟨_, hr⟩ rfl, acc1_closed V c p q t.val t.isLt ⟨_, hr⟩ rfl, h8, sum_blockTerm1, bblk1_apply]

end Blocks

/-! ## The written-back blocks cover the array -/

/-- An index of the result array is in point `t`'s block iff each coordinate is in the block's range on its axis. -/
theorem mem_blk1_3 (t : Fin cfg1.N) (i : S16384x64.Idx) :
    i ∈ ((cfg1.win 3).blk t).view.set ↔ ∀ a : Fin 2, win1_3.index t a * S1024x64.size a ≤ (i a).val
      ∧ (i a).val < win1_3.index t a * S1024x64.size a + S1024x64.size a := by
  show i ∈ ((View.whole main_v2).slice (win1_3.rect t)).set ↔ _
  rw [View.set_slice_whole, Rect.mem_set_unit]
  exact Iff.rfl

/-- Row `r` of the result array lies in the block of point `8 (r / 1024) + 7`, the last block of its row tile, which is
    written back. -/
theorem covered1_3 (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  obtain ⟨t, ht⟩ : ∃ t : Fin cfg1.N, t.val = 8 * ((i 0).val / 1024) + 7 :=
    ⟨⟨8 * ((i 0).val / 1024) + 7, by rw [show cfg1.N = 128 from N_1]; omega⟩, rfl⟩
  obtain ⟨-, -, -, -, -, -, e6, e7⟩ := idx_facts1 t
  refine ⟨t, (flush1_3 t).mpr (by omega), ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 64 ≤ (i 1).val ∧ (i 1).val < win1_3.index t (1 : Fin 2) * 64 + 64; omega

/-! ## The array after the region -/

/-- The result array of the second region after its write-backs is the aggregation of its three operands. -/
theorem final1 (V : (c : Dev nD) → (b : Ref sig .tc) → Buf (Elt Ideal) ((c : Thread nD τ).loc b)) (c : Dev nD) :
    (dat1 (F := Ideal) V c).arrAt 3 cfg1.N = Cert.Hand.Spec.agg (V c main_arg1) (V c main_v0) (V c main_v1) :=
  (dat1 (F := Ideal) V c).arrAt_eq_of_cover 3 (Cert.Hand.Spec.agg (V c main_arg1) (V c main_v0) (V c main_v1))
    (fun t hf => flushed1_3_eq V c t ((flush1_3 t).mp hf)) covered1_3

end Cert.KernelIdeal.Hand

end
-- ==== Proof.KI.Final.lean ====
/-
  The idealized kernel's result, at the ideal values: after the run the result array holds the layer
  `Cert.Hand.Spec.out` of the four argument arrays as launched.  The second region's result is the aggregation of
  what it finds in its three operands; it finds the first argument of the aggregation as launched, the first region's
  result — the projection of the two arguments it reads, as launched — and the bias reshaped to a row.
-/
import proofs.«152057_j44246753084001_1_alg».proof.Proof.KI.Run
import proofs.«152057_j44246753084001_1_alg».proof.Proof.KI.Value0
import proofs.«152057_j44246753084001_1_alg».proof.Proof.KI.Value1
import proofs.«152057_j44246753084001_1_alg».proof.Proof.Spec
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem Idealize.ShloMosaic.StableHlo
open Idealize.ShloMosaic.Pipeline (Dat Cfg Window)
open Cert.KernelIdeal.Gen

variable (m : (ℓ : Loc nD τ sig) → Buf (Elt Ideal) ℓ) (ρ : Dev nD → PrngReg)

/-- The second region finds the adjacency operand as launched. -/
theorem V2_main_arg1 (c : Dev nD) : V2 m c main_arg1 = m ((c : Thread nD τ).loc main_arg1) :=
  calc W2 m c (Proc.devRef .tc main_arg1)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := W1_of_ne m c main_arg1 (by decide)
    _ = m ((c : Thread nD τ).loc main_arg1) := rfl

/-- The second region finds, in the first region's result array, the projection of the launched arguments. -/
theorem V2_main_v0 (c : Dev nD) :
    V2 m c main_v0 = Cert.Hand.Spec.proj (m ((c : Thread nD τ).loc main_arg0)) (m ((c : Thread nD τ).loc main_arg2)) :=
  calc W2 m c (Proc.devRef .tc main_v0)
    _ = W1 m c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m) c).arrAt 2 cfg0.N := W1_arr m c 2
    _ = Cert.Hand.Spec.proj (V0 m c main_arg0) (V0 m c main_arg2) := final0 (V0 m) c
    _ = Cert.Hand.Spec.proj (m ((c : Thread nD τ).loc main_arg0)) (m ((c : Thread nD τ).loc main_arg2)) := rfl

/-- The second region finds the bias reshaped to a row. -/
theorem V2_main_v1 (c : Dev nD) :
    V2 m c main_v1 = shapeCast S1x64 (m ((c : Thread nD τ).loc main_arg3)) shapeCasts_S64_S1x64 := by
  have h3 : W1 m c (Proc.devRef .tc main_arg3) = m ((c : Thread nD τ).loc main_arg3) := W1_of_ne m c main_arg3 (by decide)
  show StableHlo.after hostOps1 (W1 m c) (Proc.devRef .tc main_v1) = _
  after_results
  rw [h3]
  rfl

/-- The row's entry `(0, j)` is the bias' entry `j`. -/
theorem bias_row (b : (⟨1, ![64]⟩ : Shape).Idx → EReal) (j : Fin 64) :
    shapeCast S1x64 b shapeCasts_S64_S1x64 (ix2 (0 : Fin 1) j) = b (ix1 j) :=
  shapeCast_a_1a_apply b shapeCasts_S64_S1x64 0 j

/-- THE RESULT: after the last item the result array holds the layer of the launched arguments. -/
theorem W3_main_v2 (c : Dev nD) :
    W3 m c (Proc.devRef .tc main_v2)
      = Cert.Hand.Spec.out (m ((c : Thread nD τ).loc main_arg0)) (m ((c : Thread nD τ).loc main_arg1))
          (m ((c : Thread nD τ).loc main_arg2)) (m ((c : Thread nD τ).loc main_arg3)) := by
  rw [show W3 m c (Proc.devRef .tc main_v2) = (dat1 (V2 m) c).arrAt 3 cfg1.N from W3_arr m c 3, final1 (V2 m) c,
    V2_main_arg1, V2_main_v0, V2_main_v1]
  exact Cert.Hand.Spec.agg_proj_eq_out _ _ _ _ _ (bias_row _)

/-- THE VALUE RUN: every weakly fair execution of the idealized kernel terminates, nothing faulting, with the result
    array at the layer of the launched arguments and the arguments unchanged. -/
theorem value_run : θ_run defs (onTc (τ := τ) (main (F := Ideal))) ⟨m, fun _ => 0, ρ⟩ (fun r => ∀ c : Dev nD,
      r.2.mem ((c.tc : Thread nD τ).loc main_v2)
        = Cert.Hand.Spec.out (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.RefValue.lean ====
/-
  The reference program at the ideal values computes the layer `Cert.Hand.Spec.out` of its four arguments:
  a transpose of `w`, the product of `x` with it, the product of `adj` with that, the bias spread over the rows,
  and their sum — read one operation at a time at an index.
-/
import proofs.«152057_j44246753084001_1_alg».proof.Proof.Gen.ReferenceIdeal.Read
import proofs.«152057_j44246753084001_1_alg».proof.Proof.Spec

noncomputable section

namespace Cert.ReferenceIdeal.RefValue

open Idealize.ShloMosaic Idealize.ShloMosaic.ValueIdx Cert.ReferenceIdeal Cert.ReferenceIdeal.Gen Cert.ReferenceIdeal.Read
open scoped BigOperators

/-! ### The index maps of the six operations, at an index given by its coordinates -/

/-- The transpose reads `w` at the swapped pair. -/
theorem idx_v0_ix2 (l : Fin 128) (j : Fin 64) : idx_main_v0 (ix2 l j) = ix2 j l :=
  funext fun a => Fin.ext (by match a with | ⟨0, _⟩ => rfl | ⟨1, _⟩ => rfl)

/-- The first product reads row `k` of `x` at column `l`. -/
theorem lidx_v1_ix2 (k : Fin 16384) (j : Fin 64) (l : Fin 128) : lidx_main_v1 (ix2 k j) l = ix2 k l :=
  funext fun a => Fin.ext (by match a with | ⟨0, _⟩ => rfl | ⟨1, _⟩ => rfl)

/-- The first product reads the transposed `w` at row `l`, column `j`. -/
theorem ridx_v1_ix2 (k : Fin 16384) (j : Fin 64) (l : Fin 128) : ridx_main_v1 (ix2 k j) l = ix2 l j :=
  funext fun a => Fin.ext (by match a with | ⟨0, _⟩ => rfl | ⟨1, _⟩ => rfl)

/-- The second product reads row `r` of `adj` at column `k`. -/
theorem lidx_v2_ix2 (r : Fin 16384) (j : Fin 64) (k : Fin 16384) : lidx_main_v2 (ix2 r j) k = ix2 r k :=
  funext fun a => Fin.ext (by match a with | ⟨0, _⟩ => rfl | ⟨1, _⟩ => rfl)

/-- The second product reads the projection at row `k`, column `j`. -/
theorem ridx_v2_ix2 (r : Fin 16384) (j : Fin 64) (k : Fin 16384) : ridx_main_v2 (ix2 r j) k = ix2 k j :=
  funext fun a => Fin.ext (by match a with | ⟨0, _⟩ => rfl | ⟨1, _⟩ => rfl)

/-- The bias, laid out as a row and spread over the rows, is read at its column. -/
theorem idx_v3_v4_ix2 (r : Fin 16384) (j : Fin 64) : idx_main_v3 (idx_main_v4 (ix2 r j)) = ix1 j :=
  funext fun a => Fin.ext (by match a with | ⟨0, _⟩ => rfl)

/-- One entry of the projection stage: row `k` of `x` against row `j` of `w`. -/
theorem v1_ix2 (x0 : (⟨S16384x128, .f32⟩ : BufTy).Contents (Elt Ideal)) (x2 : (⟨S64x128, .f32⟩ : BufTy).Contents (Elt Ideal))
    (k : Fin 16384) (j : Fin 64) :
    val_main_v1 (F := Ideal) x0 x2 (ix2 k j) = Cert.Hand.Spec.projAt x0 x2 k j := by
  rw [val_main_v1_apply]
  unfold Cert.Hand.Spec.projAt
  refine Finset.sum_congr rfl fun l _ => ?_
  rw [val_main_v0_apply, lidx_v1_ix2, ridx_v1_ix2, idx_v0_ix2]

/-- The reference's last stage, as a function of the four arguments, is the layer. -/
theorem ref_eq (x0 : (⟨S16384x128, .f32⟩ : BufTy).Contents (Elt Ideal)) (x1 : (⟨S16384x16384, .f32⟩ : BufTy).Contents (Elt Ideal))
    (x2 : (⟨S64x128, .f32⟩ : BufTy).Contents (Elt Ideal)) (x3 : (⟨S64, .f32⟩ : BufTy).Contents (Elt Ideal)) :
    val_main_v5 (F := Ideal) x0 x1 x2 x3 = Cert.Hand.Spec.out x0 x1 x2 x3 := by
  funext i
  obtain ⟨r, j, rfl⟩ : ∃ (r : Fin 16384) (j : Fin 64), i = ix2 r j := ⟨i 0, i 1, eq_ix2 i⟩
  show val_main_v5 (F := Ideal) x0 x1 x2 x3 (ix2 r j) = Cert.Hand.Spec.outAt x0 x1 x2 x3 r j
  rw [val_main_v5_apply, val_main_v2_apply, val_main_v4_apply, val_main_v3_apply, idx_v3_v4_ix2, Ideal.addf_def]
  unfold Cert.Hand.Spec.outAt
  refine congrArg (fun s : EReal => s + x3 (ix1 j)) (Finset.sum_congr rfl fun k _ => ?_)
  rw [lidx_v2_ix2, ridx_v2_ix2, v1_ix2]

end Cert.ReferenceIdeal.RefValue

end
-- ==== Proof.lean ====
/-
  The certificate of a graph-convolution layer: a Pallas program of two kernel regions against its plain reference.

  With `x : [16384, 128]`, `adj : [16384, 16384]`, `w : [64, 128]`, `b : [64]`, both programs compute
  `out (r, j) = (∑ k, adj (r, k) · (∑ l, x (k, l) · w (j, l))) + b j` over the extended reals.
  The kernel does it in two regions: the projection `h = x · wᵀ`, eight row blocks of 2048, and the aggregation
  `adj · h + b`, sixteen row tiles of 1024 each accumulated over eight blocks of 2048 of the summation index in a
  scratch buffer that is zeroed at a tile's first block and flushed, with the bias added, at its last.  Its half-precision
  casts are the identity at the ideal values, its blockwise partial sums regroup one finite sum (only associativity and
  commutativity of addition are used, so the finiteness of the inputs is never opened), and a product into a zero
  accumulator is the plain sum of products.  The reference is two products, a broadcast and an addition.

  The frames of the two kernel programs (each run terminates, faults nowhere and leaves its arguments unchanged) come from
  one run of @main — region, host operation, region — that follows every unscoped buffer's contents; the idealized
  program's run also names the result array, which is the layer; the reference's run is read one operation at a time.
  The idealization rewrote no operation, so there is nothing to preserve.
-/
import proofs.«152057_j44246753084001_1_alg».proof.Defs
import proofs.«152057_j44246753084001_1_alg».proof.Proof.Gen.Kernel
import proofs.«152057_j44246753084001_1_alg».proof.Proof.Gen.KernelIdeal
import proofs.«152057_j44246753084001_1_alg».proof.Proof.Gen.ReferenceIdeal
import proofs.«152057_j44246753084001_1_alg».proof.Proof.Gen.Pre_finite_inputs
import proofs.«152057_j44246753084001_1_alg».proof.Proof.K.Run
import proofs.«152057_j44246753084001_1_alg».proof.Proof.KI.Final
import proofs.«152057_j44246753084001_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference is a line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the layer of those arguments in their
    result arrays. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
